-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x3 : Shape := ⟨2, ![256, 3]⟩
abbrev S3 : Shape := ⟨1, ![3]⟩
abbrev S3x7 : Shape := ⟨2, ![3, 7]⟩
abbrev S7 : Shape := ⟨1, ![7]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x3 : S_.BroadcastsInDim S256x3 (![] : Fin 0 → Fin S256x3.rank)
  reducesTo_S256x3_S_d0_1 : S256x3.ReducesTo [0, 1] S_
  bcast_S_S3 : S_.BroadcastsInDim S3 (![] : Fin 0 → Fin S3.rank)
  reducesTo_S3_S_d0 : S3.ReducesTo [0] S_
  bcast_S_S3x7 : S_.BroadcastsInDim S3x7 (![] : Fin 0 → Fin S3x7.rank)
  reducesTo_S3x7_S_d0_1 : S3x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S7 .f32) (main_v13 : IVec S_ 1) (main_v16 : IVec S3x7 1) : IVec S_ 1 :=
  let main_c_5 : IVec S_ 1 := constantI S_ 1 1#1
  let main_v17 : IVec S_ 1 := (fun x v => Host.reduce IntOp.andi x v reducesTo_S3x7_S_d0_1 h_S_) main_v16 main_c_5
  let main_v18 : IVec S_ 1 := andi main_v13 main_v17
  let main_v19 : FVec F S7 .f32 := Host.absf main_arg5
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x256 .f32) (main_arg1 : IVec S2x3200000 32) (main_arg2 : FVec F S256x3 .f32) (main_arg3 : FVec F S3 .f32) (main_arg4 : FVec F S3x7 .f32) (main_arg5 : FVec F S7 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x3 .f32 := Host.absf main_arg2
  let main_cst_0 : FVec F S_ .f32 := constant S_ .f32 0x7F800000#32
  let main_v5 : FVec F S256x3 .f32 := broadcastInDim S256x3 ![] bcast_S_S256x3 main_cst_0
  let main_v6 : IVec S256x3 1 := cmpf .olt main_v4 main_v5
  let main_c_1 : IVec S_ 1 := constantI S_ 1 1#1
  let main_v7 : IVec S_ 1 := (fun x v => Host.reduce IntOp.andi x v reducesTo_S256x3_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3x7 .f32 := Host.absf main_arg4
  let main_cst_4 : FVec F S_ .f32 := constant S_ .f32 0x7F800000#32
  let main_v15 : FVec F S3x7 .f32 := broadcastInDim S3x7 ![] bcast_S_S3x7 main_cst_4
  let main_v16 : IVec S3x7 1 := cmpf .olt main_v14 main_v15
  fn_part1 (F := F) main_arg5 main_v13 main_v16
-- ==== Kernel.lean ====
abbrev S100000x256 : Shape := ⟨2, ![100000, 256]⟩
abbrev S2x3200000 : Shape := ⟨2, ![2, 3200000]⟩
abbrev S256x3 : Shape := ⟨2, ![256, 3]⟩
abbrev S3 : Shape := ⟨1, ![3]⟩
abbrev S3x7 : Shape := ⟨2, ![3, 7]⟩
abbrev S7 : Shape := ⟨1, ![7]⟩
abbrev S100000x3 : Shape := ⟨2, ![100000, 3]⟩
abbrev S5000x256 : Shape := ⟨2, ![5000, 256]⟩
abbrev S5000x3 : Shape := ⟨2, ![5000, 3]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x3 : Shape := ⟨2, ![3300000, 3]⟩
abbrev S100000x7 : Shape := ⟨2, ![100000, 7]⟩
abbrev S5000x7 : Shape := ⟨2, ![5000, 7]⟩
abbrev S1x3 : Shape := ⟨2, ![1, 3]⟩
abbrev S1x7 : Shape := ⟨2, ![1, 7]⟩

abbrev nBuf : Space → Nat
  | .hbm => 65
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x3, .f32⟩
  | .hbm, ⟨3, _⟩ => ⟨S3, .f32⟩
  | .hbm, ⟨4, _⟩ => ⟨S3x7, .f32⟩
  | .hbm, ⟨5, _⟩ => ⟨S7, .f32⟩
  | .hbm, ⟨6, _⟩ => ⟨S100000x3, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S3300000, .f32⟩
  | .hbm, ⟨16, _⟩ => ⟨S_, .f32⟩
  | .hbm, ⟨17, _⟩ => ⟨S100000, .f32⟩
  | .hbm, ⟨18, _⟩ => ⟨S3300000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3300000, .i32⟩
  | .hbm, ⟨30, _⟩ => ⟨S3300000, .i1⟩
  | .hbm, ⟨31, _⟩ => ⟨S_, .i32⟩
  | .hbm, ⟨32, _⟩ => ⟨S3300000, .i32⟩
  | .hbm, ⟨33, _⟩ => ⟨S3300000, .i32⟩
  | .hbm, ⟨34, _⟩ => ⟨S3300000, .i32⟩
  | .hbm, ⟨35, _⟩ => ⟨S3300000x1, .i32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x3, .f32⟩
  | .hbm, ⟨56, _⟩ => ⟨S3300000x1, .f32⟩
  | .hbm, ⟨57, _⟩ => ⟨S3300000x3, .f32⟩
  | .hbm, ⟨58, _⟩ => ⟨S3300000x3, .f32⟩
  | .hbm, ⟨59, _⟩ => ⟨S_, .f32⟩
  | .hbm, ⟨60, _⟩ => ⟨S100000x3, .f32⟩
  | .hbm, ⟨61, _⟩ => ⟨S3300000x1, .i32⟩
  | .hbm, ⟨62, _⟩ => ⟨S100000x3, .f32⟩
  | .hbm, ⟨63, _⟩ => ⟨S100000x3, .f32⟩
  | .hbm, ⟨64, _⟩ => ⟨S100000x7, .f32⟩
  | .local _ .vmem, ⟨0, _⟩ => ⟨S5000x256, .f32⟩
  | .local _ .vmem, ⟨1, _⟩ => ⟨S5000x256, .f32⟩
  | .local _ .vmem, ⟨2, _⟩ => ⟨S256x3, .f32⟩
  | .local _ .vmem, ⟨3, _⟩ => ⟨S5000x3, .f32⟩
  | .local _ .vmem, ⟨4, _⟩ => ⟨S5000x3, .f32⟩
  | .local _ .vmem, ⟨5, _⟩ => ⟨S5000x3, .f32⟩
  | .local _ .vmem, ⟨6, _⟩ => ⟨S5000x3, .f32⟩
  | .local _ .vmem, ⟨7, _⟩ => ⟨S3, .f32⟩
  | .local _ .vmem, ⟨8, _⟩ => ⟨S3x7, .f32⟩
  | .local _ .vmem, ⟨9, _⟩ => ⟨S7, .f32⟩
  | .local _ .vmem, ⟨10, _⟩ => ⟨S5000x3, .f32⟩
  | .local _ .vmem, ⟨11, _⟩ => ⟨S5000x3, .f32⟩
  | .local _ .vmem, ⟨12, _⟩ => ⟨S5000x7, .f32⟩
  | .local _ .vmem, ⟨13, _⟩ => ⟨S5000x7, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x7 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S7 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x7 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x3_S256x3_0_0 : ∀ a, (![0, 0] : Fin 2 → Nat) a + S256x3.size a ≤ S256x3.size a
  h_S256x3 : 0 < S256x3.numel
  inb_S5000x3_S5000x3_0_0 : ∀ a, (![0, 0] : Fin 2 → Nat) a + S5000x3.size a ≤ S5000x3.size a
  h_S5000x3 : 0 < S5000x3.numel
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  shapeCasts_S5000x3_S5000x3 : S5000x3.ShapeCasts S5000x3
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  inb_S3x7_S3x7_0_0 : ∀ a, (![0, 0] : Fin 2 → Nat) a + S3x7.size a ≤ S3x7.size a
  h_S3x7 : 0 < S3x7.numel
  inb_S7_S7_0 : ∀ a, (![0] : Fin 1 → Nat) a + S7.size a ≤ S7.size a
  h_S7 : 0 < S7.numel
  shapeCasts_S7_S1x7 : S7.ShapeCasts S1x7
  broadcasts_S1x7_S5000x7 : S1x7.Broadcasts S5000x7
  inb_S5000x7_S5000x7_0_0 : ∀ a, (![0, 0] : Fin 2 → Nat) a + S5000x7.size a ≤ S5000x7.size a
  h_S5000x7 : 0 < S5000x7.numel
  dot_S5000x256_S256x3_S5000x3_1_0_0_1_n_n_wf : DotDims.WF S5000x256 S256x3 S5000x3 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  dot_S5000x3_S3x7_S5000x7_1_0_0_1_n_n_wf : DotDims.WF S5000x3 S3x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x3.size a ≤ S256x3.size a
  hwx0_1 : ∀ i : grid0.Coords, EltTy.bits .f32 = 32 ∨ (Rect.block (s := S256x3) S256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x3.size a ≤ S100000x3.size a
  hwx0_2 : ∀ i : grid0.Coords, EltTy.bits .f32 = 32 ∨ (Rect.block (s := S100000x3) S5000x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S100000x3.size a
  hwx1_0 : ∀ i : grid1.Coords, EltTy.bits .f32 = 32 ∨ (Rect.block (s := S100000x3) S5000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3.size a ≤ S3.size a
  hwx1_1 : ∀ i : grid1.Coords, EltTy.bits .f32 = 32 ∨ (Rect.block (s := S3) S3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x7.size a ≤ S3x7.size a
  hwx1_2 : ∀ i : grid1.Coords, EltTy.bits .f32 = 32 ∨ (Rect.block (s := S3x7) S3x7.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S7.size a ≤ S7.size a
  hwx1_3 : ∀ i : grid1.Coords, EltTy.bits .f32 = 32 ∨ (Rect.block (s := S7) S7.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x3.size a ≤ S100000x3.size a
  hwx1_4 : ∀ i : grid1.Coords, EltTy.bits .f32 = 32 ∨ (Rect.block (s := S100000x3) S5000x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x7.size a ≤ S100000x7.size a
  hwx1_5 : ∀ i : grid1.Coords, EltTy.bits .f32 = 32 ∨ (Rect.block (s := S100000x7) S5000x7.size (cc1_transform_5 i) (hinb1_5 i)).WholeWords (EltTy.packing .f32)

variable [Facts₀]

def dot_S5000x256_S256x3_S5000x3_1_0_0_1_n_n : DotDims S5000x256 S256x3 S5000x3 where
  lhsContracting := [1]
  rhsContracting := [0]
  lhsNonContracting := [0]
  rhsNonContracting := [1]
  lhsBatch := []
  rhsBatch := []
  wf := dot_S5000x256_S256x3_S5000x3_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf
def dot_S5000x3_S3x7_S5000x7_1_0_0_1_n_n : DotDims S5000x3 S3x7 S5000x7 where
  lhsContracting := [1]
  rhsContracting := [0]
  lhsNonContracting := [0]
  rhsNonContracting := [1]
  lhsBatch := []
  rhsBatch := []
  wf := dot_S5000x3_S3x7_S5000x7_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S3x7.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_0) S5000x3.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44_1) S5000x7.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x3 : Shape := ⟨2, ![256, 3]⟩
abbrev S3 : Shape := ⟨1, ![3]⟩
abbrev S3x7 : Shape := ⟨2, ![3, 7]⟩
abbrev S7 : Shape := ⟨1, ![7]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x3 : Shape := ⟨2, ![100000, 3]⟩
abbrev S3300000x3 : Shape := ⟨2, ![3300000, 3]⟩
abbrev S1x3 : Shape := ⟨2, ![1, 3]⟩
abbrev S100000x7 : Shape := ⟨2, ![100000, 7]⟩
abbrev S1x7 : Shape := ⟨2, ![1, 7]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x3, .f32⟩
  | .hbm, ⟨3, _⟩ => ⟨S3, .f32⟩
  | .hbm, ⟨4, _⟩ => ⟨S3x7, .f32⟩
  | .hbm, ⟨5, _⟩ => ⟨S7, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x3, .f32⟩
  | .hbm, ⟨47, _⟩ => ⟨S_, .i32⟩
  | .hbm, ⟨48, _⟩ => ⟨S3300000, .i32⟩
  | .hbm, ⟨49, _⟩ => ⟨S3300000, .i1⟩
  | .hbm, ⟨50, _⟩ => ⟨S_, .i32⟩
  | .hbm, ⟨51, _⟩ => ⟨S3300000, .i32⟩
  | .hbm, ⟨52, _⟩ => ⟨S3300000, .i32⟩
  | .hbm, ⟨53, _⟩ => ⟨S3300000, .i32⟩
  | .hbm, ⟨54, _⟩ => ⟨S3300000x1, .i32⟩
  | .hbm, ⟨55, _⟩ => ⟨S3300000x3, .f32⟩
  | .hbm, ⟨56, _⟩ => ⟨S3300000x1, .f32⟩
  | .hbm, ⟨57, _⟩ => ⟨S3300000x3, .f32⟩
  | .hbm, ⟨58, _⟩ => ⟨S3300000x3, .f32⟩
  | .hbm, ⟨59, _⟩ => ⟨S_, .f32⟩
  | .hbm, ⟨60, _⟩ => ⟨S100000x3, .f32⟩
  | .hbm, ⟨61, _⟩ => ⟨S3300000x1, .i32⟩
  | .hbm, ⟨62, _⟩ => ⟨S100000x3, .f32⟩
  | .hbm, ⟨63, _⟩ => ⟨S1x3, .f32⟩
  | .hbm, ⟨64, _⟩ => ⟨S100000x3, .f32⟩
  | .hbm, ⟨65, _⟩ => ⟨S100000x3, .f32⟩
  | .hbm, ⟨66, _⟩ => ⟨S_, .f32⟩
  | .hbm, ⟨67, _⟩ => ⟨S100000x3, .f32⟩
  | .hbm, ⟨68, _⟩ => ⟨S100000x3, .f32⟩
  | .hbm, ⟨69, _⟩ => ⟨S100000x7, .f32⟩
  | .hbm, ⟨70, _⟩ => ⟨S1x7, .f32⟩
  | .hbm, ⟨71, _⟩ => ⟨S100000x7, .f32⟩
  | .hbm, ⟨72, _⟩ => ⟨S100000x7, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x3_0_1 : S3300000x1.BroadcastsInDim S3300000x3 (![0, 1] : Fin 2 → Fin S3300000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x256_S256x3_S100000x3_1_0_0_1_n_n_wf : DotDims.WF S100000x256 S256x3 S100000x3 [1] [0] [0] [1] [] []
  gather_S100000x3_S3300000x1_S3300000x3_1_0_n_n_0_1_13_wf : GatherDims.WF S100000x3 S3300000x1 S3300000x3 [1] [0] [] [0] [] 1 ![1, 3]
  scatter_S100000x3_S3300000x1_S3300000x3_1_0_0_1_wf : ScatterDims.WF S100000x3 S3300000x1 S3300000x3 [1] [0] [0] 1
  dot_S100000x3_S3x7_S100000x7_1_0_0_1_n_n_wf : DotDims.WF S100000x3 S3x7 S100000x7 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x256_S256x3_S100000x3_1_0_0_1_n_n : DotDims S100000x256 S256x3 S100000x3 where
  lhsContracting := [1]
  rhsContracting := [0]
  lhsNonContracting := [0]
  rhsNonContracting := [1]
  lhsBatch := []
  rhsBatch := []
  wf := dot_S100000x256_S256x3_S100000x3_1_0_0_1_n_n_wf
def gather_S100000x3_S3300000x1_S3300000x3_1_0_n_n_0_1_13 : GatherDims S100000x3 S3300000x1 S3300000x3 where
  offsetDims := [1]
  collapsedSliceDims := [0]
  operandBatchingDims := []
  startIndicesBatchingDims := []
  startIndexMap := [0]
  indexVectorDim := 1
  sliceSizes := ![1, 3]
  wf := gather_S100000x3_S3300000x1_S3300000x3_1_0_n_n_0_1_13_wf
def scatter_S100000x3_S3300000x1_S3300000x3_1_0_0_1 : ScatterDims S100000x3 S3300000x1 S3300000x3 where
  updateWindowDims := [1]
  insertedWindowDims := [0]
  scatterDimsToOperandDims := [0]
  indexVectorDim := 1
  wf := scatter_S100000x3_S3300000x1_S3300000x3_1_0_0_1_wf
def dot_S100000x3_S3x7_S100000x7_1_0_0_1_n_n : DotDims S100000x3 S3x7 S100000x7 where
  lhsContracting := [1]
  rhsContracting := [0]
  lhsNonContracting := [0]
  rhsNonContracting := [1]
  lhsBatch := []
  rhsBatch := []
  wf := dot_S100000x3_S3x7_S100000x7_1_0_0_1_n_n_wf

class Facts : Prop extends Facts₀ where

variable [Facts]
-- ==== Proof.Graph.lean ====
/-
  The graph half of the layer — the part both programs leave to the host, operation for operation — as ONE function of
  the transformed node features `h` (100000 × 3) and the edge list `e` (2 × 3200000, row 0 the sources, row 1 the
  targets). Self-loops are appended to both rows; a node's degree is the number of edge ends (self-loop included) that
  target it, a scatter-add of ones; `dinv` is `1/√deg` where the degree is positive and 0 elsewhere; an edge's weight
  is `dinv[src] · dinv[dst]`, indices below zero counted from the end as jnp's indexing does; and the aggregate adds,
  into the row of each edge's target, the source's feature row times the edge's weight. Nothing here is ever opened:
  the two programs agree on this function's ARGUMENTS, and that is all the certificate needs of it.
-/
import proofs.«124952_j39960375722198_1_alg».proof.KernelIdeal
import proofs.«124952_j39960375722198_1_alg».proof.Proof.Gen.KernelIdeal

noncomputable section

namespace Cert.KernelIdeal.Graph

open Cert.KernelIdeal Cert.KernelIdeal.Facts₀ Idealize.ShloMosaic

variable {F : FTy → Type} [FloatOps F]

/-- Row `0` of the edge list, the edges' sources, followed by the self-loops `0, …, 99999`. -/
def sources (e : IVec S2x3200000 32) : IVec S3300000 32 :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Row `1`, the edges' targets, followed by the same self-loops. -/
def targets (e : IVec S2x3200000 32) : IVec S3300000 32 :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- An index below zero counts from the end of the node axis. -/
def fromEnd (v : IVec S3300000 32) : IVec S3300000 32 :=
  select (cmpi .slt v (broadcastInDim S3300000 ![] bcast_S_S3300000 (constantI S_ 32 0#32))) (addi v (broadcastInDim S3300000 ![] bcast_S_S3300000 (constantI S_ 32 100000#32))) v

/-- A node's degree: the number of edge ends, self-loop included, whose target it is. -/
def degree (e : IVec S2x3200000 32) : FVec F S100000 .f32 :=
  Host.scatterAdd scatter_S100000_S3300000x1_S3300000_n_0_0_1 (broadcastInDim S100000 ![] bcast_S_S100000 (constant S_ .f32 0x00000000#32)) (broadcastInDim S3300000x1 ![0] bcast_S3300000_S3300000x1_0 (targets e)) (broadcastInDim S3300000 ![] bcast_S_S3300000 (constant S_ .f32 0x3F800000#32))

/-- `1/√deg` where the degree is positive, `0` elsewhere. -/
def dinv (e : IVec S2x3200000 32) : FVec F S100000 .f32 :=
  select (cmpf (F := F) .ogt (degree e) (broadcastInDim S100000 ![] bcast_S_S100000 (constant S_ .f32 0x00000000#32))) (Host.rsqrt (degree e)) (broadcastInDim S100000 ![] bcast_S_S100000 (id (constant S_ .f32 0x00000000#32)))

/-- An edge's weight: `dinv` at its source times `dinv` at its target. -/
def weight (e : IVec S2x3200000 32) : FVec F S3300000 .f32 :=
  mulf (Host.gather gather_S100000_S3300000x1_S3300000_n_0_n_n_0_1_1 (dinv e) (broadcastInDim S3300000x1 ![0] bcast_S3300000_S3300000x1_0 (fromEnd (sources e)))) (Host.gather gather_S100000_S3300000x1_S3300000_n_0_n_n_0_1_1 (dinv e) (broadcastInDim S3300000x1 ![0] bcast_S3300000_S3300000x1_0 (fromEnd (targets e))))

/-- THE AGGREGATE: into each edge's target row, the source's feature row times the edge's weight, summed over the edges. -/
def aggregate (h : FVec F S100000x3 .f32) (e : IVec S2x3200000 32) : FVec F S100000x3 .f32 :=
  Host.scatterAdd scatter_S100000x3_S3300000x1_S3300000x3_1_0_0_1 (broadcastInDim S100000x3 ![] bcast_S_S100000x3 (constant S_ .f32 0x00000000#32)) (broadcastInDim S3300000x1 ![0] bcast_S3300000_S3300000x1_0 (targets e)) (mulf (Host.gather gather_S100000x3_S3300000x1_S3300000x3_1_0_n_n_0_1_13 h (broadcastInDim S3300000x1 ![0] bcast_S3300000_S3300000x1_0 (fromEnd (sources e)))) (broadcastInDim S3300000x3 ![0, 1] bcast_S3300000x1_S3300000x3_0_1 (broadcastInDim S3300000x1 ![0] bcast_S3300000_S3300000x1_0 (weight e))))

end Cert.KernelIdeal.Graph

end
-- ==== Proof.LibRowDot.lean ====
/-
  A plain two-dimensional contraction read at an index. For dimension numbers that contract the left
  operand's last axis with the right operand's first axis and have no batch axes — the numbers of an
  ordinary matrix product `[n, d] × [d, h] → [n, h]` — the sum over the contraction index, at the
  result index `j`, is the sum over `k : Fin d` of the left operand at `(j 0, k)` times the right
  operand at `(k, j 1)`: row `j 0` of the left matrix against column `j 1` of the right one
  (`rowDot`). Stated for ANY such dimension-number record, from equations naming its six lists, so it
  serves a kernel's matrix product on a block of rows and the host's product on a whole array alike.
-/
import Idealize.ShloMosaic.Lib.ValueIdx
import Idealize.ShloMosaic.PureOps.Ideal.Laws

noncomputable section

open scoped BigOperators

namespace Cert.LibRowDot

open Idealize.ShloMosaic Idealize.ShloMosaic.ValueIdx

/-- A matrix of extended reals with `n` rows and `d` columns, as a function of its rank-2 index. -/
abbrev Mat (n d : ℕ) : Type := (⟨2, ![n, d]⟩ : Shape).Idx → EReal

/-- Row `r` of `a` against column `q` of `w`: `∑ k, a (r, k) · w (k, q)`. -/
def rowDot {n d h : ℕ} (a : Mat n d) (w : Mat d h) (r : Fin n) (q : Fin h) : EReal :=
  ∑ k : Fin d, a (ix2 r k) * w (ix2 k q)

section Plain

variable {n d h : ℕ} (D : DotDims ⟨2, ![n, d]⟩ ⟨2, ![d, h]⟩ ⟨2, ![n, h]⟩)

/-- One contracting axis: the contraction shape has rank one. -/
theorem contr_rank (hlc : D.lhsContracting = [1]) : D.contr.rank = 1 := by
  rw [D.rank_contr, hlc]; rfl

/-- Its one axis has the left operand's column count. -/
theorem contr_size (hlc : D.lhsContracting = [1]) :
    D.contr.size ⟨0, by rw [contr_rank D hlc]; exact Nat.one_pos⟩ = d := by
  have h := D.size_contr 0 (by rw [hlc]; exact Nat.one_pos)
  rw [h]
  simp only [hlc, List.getElem_cons_zero]
  rfl

private theorem coord_congr {m : ℕ} {sz : Fin m → ℕ} (j : (a : Fin m) → Fin (sz a)) :
    ∀ (p q : ℕ) (hp : p < m) (hq : q < m), p = q → (j ⟨p, hp⟩).val = (j ⟨q, hq⟩).val :=
  fun p q hp hq e => by subst e; rfl

/-- The left operand's row coordinate is the result's row coordinate. -/
theorem lhs_row (hln : D.lhsNonContracting = [0]) (hlb : D.lhsBatch = [])
    (j : (⟨2, ![n, h]⟩ : Shape).Idx) (k : D.contr.Idx) : (D.lhsIdx j k 0).val = (j 0).val := by
  have hb : (0 : Fin (⟨2, ![n, d]⟩ : Shape).rank) ∉ D.lhsBatch := by rw [hlb]; exact List.not_mem_nil
  have hn : (0 : Fin (⟨2, ![n, d]⟩ : Shape).rank) ∈ D.lhsNonContracting := by rw [hln]; exact List.mem_singleton.mpr rfl
  unfold DotDims.lhsIdx
  rw [dif_neg hb, dif_pos hn]
  simp only [Fin.val_cast]
  exact coord_congr j _ _ _ _ (by simp [hlb, hln])

/-- The left operand's column coordinate is the contraction index's one coordinate. -/
theorem lhs_col (hlc : D.lhsContracting = [1]) (j : (⟨2, ![n, h]⟩ : Shape).Idx) (k : D.contr.Idx) :
    (D.lhsIdx j k 1).val = (k ⟨0, by rw [contr_rank D hlc]; exact Nat.one_pos⟩).val :=
  D.lhsIdx_val_of_single hlc j k

/-- The right operand's row coordinate is the contraction index's one coordinate. -/
theorem rhs_row (hlc : D.lhsContracting = [1]) (hrc : D.rhsContracting = [0]) (j : (⟨2, ![n, h]⟩ : Shape).Idx)
    (k : D.contr.Idx) : (D.rhsIdx j k 0).val = (k ⟨0, by rw [contr_rank D hlc]; exact Nat.one_pos⟩).val :=
  D.rhsIdx_val_of_single hrc j k

/-- The right operand's column coordinate is the result's column coordinate. -/
theorem rhs_col (hln : D.lhsNonContracting = [0]) (hrn : D.rhsNonContracting = [1]) (hlb : D.lhsBatch = [])
    (hrb : D.rhsBatch = []) (j : (⟨2, ![n, h]⟩ : Shape).Idx) (k : D.contr.Idx) :
    (D.rhsIdx j k 1).val = (j 1).val := by
  have hb : (1 : Fin (⟨2, ![d, h]⟩ : Shape).rank) ∉ D.rhsBatch := by rw [hrb]; exact List.not_mem_nil
  have hn : (1 : Fin (⟨2, ![d, h]⟩ : Shape).rank) ∈ D.rhsNonContracting := by rw [hrn]; exact List.mem_singleton.mpr rfl
  unfold DotDims.rhsIdx
  rw [dif_neg hb, dif_pos hn]
  simp only [Fin.val_cast]
  exact coord_congr j _ _ _ _ (by simp [hlb, hln, hrn])

/-- THE CONTRACTION AS A ROW AGAINST A COLUMN: the sum over the record's contraction index is `rowDot`. -/
theorem sum_contr_eq_rowDot (hlc : D.lhsContracting = [1]) (hrc : D.rhsContracting = [0])
    (hln : D.lhsNonContracting = [0]) (hrn : D.rhsNonContracting = [1]) (hlb : D.lhsBatch = [])
    (hrb : D.rhsBatch = []) (l : Mat n d) (r : Mat d h) (j : (⟨2, ![n, h]⟩ : Shape).Idx) :
    ∑ k : D.contr.Idx, l (D.lhsIdx j k) * r (D.rhsIdx j k) = rowDot l r (j 0) (j 1) := by
  unfold rowDot
  rw [← Equiv.sum_comp (contrEquiv1 D d (contr_rank D hlc) (contr_size D hlc)).symm]
  refine Finset.sum_congr rfl fun k _ => ?_
  have hk := contrEquiv1_symm_val D d (contr_rank D hlc) (contr_size D hlc) k
  have el : D.lhsIdx j ((contrEquiv1 D d (contr_rank D hlc) (contr_size D hlc)).symm k) = ix2 (j 0) k := by
    funext a; apply Fin.ext
    match a with
    | ⟨0, _⟩ => exact lhs_row D hln hlb _ _
    | ⟨1, _⟩ => exact (lhs_col D hlc _ _).trans hk
  have er : D.rhsIdx j ((contrEquiv1 D d (contr_rank D hlc) (contr_size D hlc)).symm k) = ix2 k (j 1) := by
    funext a; apply Fin.ext
    match a with
    | ⟨0, _⟩ => exact (rhs_row D hlc hrc _ _).trans hk
    | ⟨1, _⟩ => exact rhs_col D hln hrn hlb hrb _ _
  exact congrArg₂ (· * ·) (congrArg l el) (congrArg r er)

/-- A kernel's matrix product into a zero accumulator, at the ideal values, read at an index. -/
theorem matmul_zero_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (l : FVec Ideal ⟨2, ![n, d]⟩ .f32)
    (r : FVec Ideal ⟨2, ![d, h]⟩ .f32) (j : (⟨2, ![n, h]⟩ : Shape).Idx) :
    FloatOps.matmul D prec l r (constant ⟨2, ![n, h]⟩ .f32 0x00000000#32) j = rowDot l r (j 0) (j 1) := by
  rw [Ideal.matmul_constant_zero_apply]
  exact sum_contr_eq_rowDot D hlc hrc hln hrn hlb hrb l r j

/-- The host's matrix product, at the ideal values, read at an index. -/
theorem dotGeneral_apply (hlc : D.lhsContracting = [1]) (hrc : D.rhsContracting = [0])
    (hln : D.lhsNonContracting = [0]) (hrn : D.rhsNonContracting = [1]) (hlb : D.lhsBatch = [])
    (hrb : D.rhsBatch = []) (prec : Option ContractPrecision) (sched : HostSchedule)
    (l : FVec Ideal ⟨2, ![n, d]⟩ .f32) (r : FVec Ideal ⟨2, ![d, h]⟩ .f32) (j : (⟨2, ![n, h]⟩ : Shape).Idx) :
    FloatOps.dotGeneral D prec sched l r j = rowDot l r (j 0) (j 1) := by
  rw [Ideal.dotGeneral_apply]
  exact sum_contr_eq_rowDot D hlc hrc hln hrn hlb hrb l r j

end Plain

end Cert.LibRowDot

end
-- ==== Proof.FeatureMap.lean ====
/-
  The first region's value. The kernel tiles the node axis into 20 blocks of 5000 rows; at each block it multiplies the
  block of `x` (5000 × 256) by the whole weight matrix `W1` (256 × 3), both cast to bf16 — a change of format, the
  identity on extended reals — into a zero accumulator, and writes the 5000 × 3 product back to block `t` of the
  feature array. Row `r` of block `t` is row `5000·t + r` of `x`, so entry `(i, q)` of the array the region leaves is
  the dot product of row `i` of `x` with column `q` of `W1`: the 20 blocks are the restrictions of ONE function of the
  two argument arrays (`xw`), and they tile the array.
-/
import proofs.«124952_j39960375722198_1_alg».proof.Proof.Gen.KernelIdeal.Frame
import proofs.«124952_j39960375722198_1_alg».proof.Proof.LibRowDot
import Idealize.ShloMosaic.Lib.Pipeline.Value
import Idealize.ShloMosaic.Lib.ValueIdx
import Idealize.ShloMosaic.PureOps.Ideal.Laws

set_option maxRecDepth 16384

noncomputable section

namespace Cert.KernelIdeal.FeatureMap

open Cert.KernelIdeal Cert.KernelIdeal.Gen Cert.LibRowDot
open Idealize.ShloMosaic Idealize.ShloMosaic.TcCoe Idealize.ShloMosaic.ValueIdx
open Idealize.ShloMosaic.Pipeline (Dat Cfg Window)

/-- `x · W1`, entry by entry: row `j 0` of `x` against column `j 1` of `W1`. -/
def xw (x : S100000x256.Idx → EReal) (w : S256x3.Idx → EReal) : S100000x3.Idx → EReal :=
  fun j => rowDot x w (j 0) (j 1)

/-- The body's stored value at an entry of the block: the cast blocks' product into zero is the row-by-column sum. -/
theorem pay_apply (x0 : Vec Ideal S5000x256 .f32) (x1 : Vec Ideal S256x3 .f32) (y : S5000x3.Idx) :
    k0_pay1 (F := Ideal) x0 x1 y = rowDot x0 x1 (y 0) (y 1) := by
  unfold k0_pay1
  show FloatOps.matmul dot_S5000x256_S256x3_S5000x3_1_0_0_1_n_n none _ _ (constant S5000x3 .f32 0x00000000#32) y = _
  rw [Ideal.matmul_constant_zero_apply]
  exact sum_contr_eq_rowDot dot_S5000x256_S256x3_S5000x3_1_0_0_1_n_n rfl rfl rfl rfl rfl rfl x0 x1 y

theorem hz : (![0, 0] : Fin 2 → Nat) = fun _ => 0 := funext fun a => by fin_cases a <;> rfl

variable (V : (c : Dev nD) → (b : Ref sig .tc) → Buf (Elt Ideal) ((c : Thread nD τ).loc b))

/-- The printed index maps over the grid: the row block of `x` and of the output is the point itself, the column
    block and the weight's block are 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Block `t` of `x` at `(r, k)` is `x` at `(5000·t + r, k)`. -/
theorem x_blk (c : Dev nD) (t : Fin cfg0.N) (r : Fin 5000) (k : Fin 256) (i : Fin 100000) (hi : i.val = t.val * 5000 + r.val) :
    iblk0 V c 0 t (ix2 r k) = V c main_arg0 (ix2 i k) := by
  obtain ⟨e0, e1, -, -, -, -⟩ := idx_facts t
  show V c main_arg0 (((cfg0.win 0).blk t).view.emb (ix2 r k)) = V c main_arg0 (ix2 i k)
  refine congrArg _ ?_
  funext a; apply Fin.ext
  match a with
  | ⟨0, _⟩ => show win0_0.index t (0 : Fin 2) * 5000 + 1 * r.val = i.val; omega
  | ⟨1, _⟩ => show win0_0.index t (1 : Fin 2) * 256 + 1 * k.val = k.val; omega

/-- The weight's one block is the whole of `W1`. -/
theorem w_blk (c : Dev nD) (t : Fin cfg0.N) (k : Fin 256) (q : Fin 3) :
    iblk0 V c 1 t (ix2 k q) = V c main_arg2 (ix2 k q) := by
  obtain ⟨-, -, e2, e3, -, -⟩ := idx_facts t
  show V c main_arg2 (((cfg0.win 1).blk t).view.emb (ix2 k q)) = V c main_arg2 (ix2 k q)
  refine congrArg _ ?_
  funext a; apply Fin.ext
  match a with
  | ⟨0, _⟩ => show win0_1.index t (0 : Fin 2) * 256 + 1 * k.val = k.val; omega
  | ⟨1, _⟩ => show win0_1.index t (1 : Fin 2) * 3 + 1 * q.val = q.val; omega

/-- WHAT POINT `t` WRITES BACK is block `t` of `xw` of the two argument arrays as the region finds them: entry `(r, q)` of
    the stored product is row `r` of `x`'s block against column `q` of `W1`, and that row is row `5000·t + r` of `x`. -/
theorem flushed_eq (c : Dev nD) (t : Fin cfg0.N) :
    (dat0 V c).flushed 2 t = ((cfg0.win 2).blk t).view.read (Elt Ideal) (xw (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x3) hz]
  funext y
  obtain ⟨-, -, -, -, e4, e5⟩ := idx_facts t
  have hi : ((((cfg0.win 2).blk t).view.emb y) 0).val = win0_2.index t (0 : Fin 2) * 5000 + 1 * (y 0).val := rfl
  have hq : ((((cfg0.win 2).blk t).view.emb y) 1).val = win0_2.index t (1 : Fin 2) * 3 + 1 * (y 1).val := rfl
  have hq' : (((cfg0.win 2).blk t).view.emb y) 1 = y 1 := Fin.ext (by rw [hq, e5]; omega)
  show k0_pay1 (F := Ideal) (iblk0 V c 0 t) (iblk0 V c 1 t) y = xw (V c main_arg0) (V c main_arg2) (((cfg0.win 2).blk t).view.emb y)
  refine (pay_apply _ _ y).trans ?_
  unfold xw rowDot
  rw [hq']
  refine Finset.sum_congr rfl fun k _ => ?_
  rw [x_blk V c t (y 0) k (((cfg0.win 2).blk t).view.emb y 0) (by rw [hi, e4]; omega), w_blk V c t k (y 1)]

/-- An index of the feature array is in point `t`'s block iff each coordinate is in the block's range on its axis. -/
theorem mem_blk (t : Fin cfg0.N) (i : S100000x3.Idx) :
    i ∈ ((cfg0.win 2).blk t).view.set ↔ ∀ a : Fin 2, win0_2.index t a * S5000x3.size a ≤ (i a).val ∧ (i a).val < win0_2.index t a * S5000x3.size a + S5000x3.size a := by
  show i ∈ ((View.whole main_v0).slice (win0_2.rect t)).set ↔ _
  rw [View.set_slice_whole, Rect.mem_set_unit]
  exact Iff.rfl

/-- The 20 row blocks tile the array: row `i` lies in the block of point `i / 5000`. -/
theorem cover (i : S100000x3.Idx) : ∃ t : Fin cfg0.N, (cfg0.win 2).flush t = true ∧ i ∈ ((cfg0.win 2).blk t).view.set := by
  have hi0 : (i 0).val < 100000 := (i 0).isLt
  have hi1 : (i 1).val < 3 := (i 1).isLt
  have hN : cfg0.N = 20 := N_0
  let t : Fin cfg0.N := ⟨(i 0).val / 5000, by rw [hN]; omega⟩
  have ht : t.val = (i 0).val / 5000 := rfl
  obtain ⟨-, -, -, -, e4, e5⟩ := idx_facts t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 3 ≤ (i 1).val ∧ (i 1).val < win0_2.index t (1 : Fin 2) * 3 + 3; omega

/-- THE FEATURE ARRAY after the region: `x · W1` of the two argument arrays as the region finds them. -/
theorem final (c : Dev nD) : (dat0 V c).arrAt 2 cfg0.N = xw (V c main_arg0) (V c main_arg2) :=
  (dat0 V c).arrAt_eq_of_cover 2 _ (fun t _ => flushed_eq V c t) cover

end Cert.KernelIdeal.FeatureMap

end
-- ==== Proof.Head.lean ====
/-
  The second region's value. The same 20 row blocks: at block `t` the kernel adds the bias row `b1` to the 5000 × 3
  block of the aggregate, takes the maximum with zero, writes that to block `t` of the rectified array, then multiplies
  it by the whole of `W2` (3 × 7; both cast to bf16, the identity on extended reals) into a zero accumulator, adds the
  bias row `b2` and writes the 5000 × 7 block of logits. Row `r` of block `t` is row `5000·t + r`, nothing mixes rows, so
  the blocks of each output are the restrictions of one function of the four arrays the region reads: `rectified`
  and `logits`.
-/
import proofs.«124952_j39960375722198_1_alg».proof.Proof.Gen.KernelIdeal.Frame
import proofs.«124952_j39960375722198_1_alg».proof.Proof.LibRowDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Cert.KernelIdeal Cert.KernelIdeal.Gen Cert.LibRowDot
open Idealize.ShloMosaic Idealize.ShloMosaic.TcCoe Idealize.ShloMosaic.ValueIdx
open Idealize.ShloMosaic.Pipeline (Dat Cfg Window)

/-- The rectified features: `max (a + b, 0)` entry by entry, the bias one row added to every node's. -/
def rectified (a : S100000x3.Idx → EReal) (b : S3.Idx → EReal) : S100000x3.Idx → EReal :=
  fun j => max (a j + b (ix1 (j 1))) (Ideal.ofBits .f32 0x00000000#32)

/-- The logits: a node's rectified row against each column of `W2`, plus that column's bias. -/
def logits (a : S100000x3.Idx → EReal) (b : S3.Idx → EReal) (w : S3x7.Idx → EReal) (b2 : S7.Idx → EReal) : S100000x7.Idx → EReal :=
  fun j => rowDot (rectified a b) w (j 0) (j 1) + b2 (ix1 (j 1))

/-- The first stored value at an entry of the block: the block's entry plus the bias of its column, against zero. -/
theorem relu_pay (x0 : Vec Ideal S5000x3 .f32) (x1 : Vec Ideal S3 .f32) (r : Fin 5000) (q : Fin 3) :
    k1_pay1 (F := Ideal) x0 x1 (ix2 r q) = max (x0 (ix2 r q) + x1 (ix1 q)) (Ideal.ofBits .f32 0x00000000#32) := by
  unfold k1_pay1
  rw [shapeCast_self]
  simp only [maximumf, addf, broadcast, Ideal.maximumf_def, Ideal.addf_def]
  rw [broadcastTo_1b_ab_apply, shapeCast_a_1a_apply]
  rfl

/-- The second stored value at an entry: row `r` of the first against column `q` of the weight block, plus the bias. -/
theorem logit_pay (x0 : Vec Ideal S5000x3 .f32) (x1 : Vec Ideal S3 .f32) (x2 : Vec Ideal S3x7 .f32) (x3 : Vec Ideal S7 .f32)
    (r : Fin 5000) (q : Fin 7) :
    k1_pay2 (F := Ideal) x0 x1 x2 x3 (ix2 r q) = rowDot (k1_pay1 (F := Ideal) x0 x1) x2 r q + x3 (ix1 q) := by
  unfold k1_pay2
  simp only [addf, Ideal.addf_def]
  rw [broadcastTo_1b_ab_apply, shapeCast_a_1a_apply]
  refine congrArg (· + x3 (ix1 q)) ?_
  show FloatOps.matmul dot_S5000x3_S3x7_S5000x7_1_0_0_1_n_n none _ _ (constant S5000x7 .f32 0x00000000#32) (ix2 r q) = _
  rw [Ideal.matmul_constant_zero_apply]
  exact sum_contr_eq_rowDot dot_S5000x3_S3x7_S5000x7_1_0_0_1_n_n rfl rfl rfl rfl rfl rfl (k1_pay1 (F := Ideal) x0 x1) x2 (ix2 r q)

theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-- The printed index maps over the grid: the aggregate's and both outputs' row block is the point itself; every
    other block index is 0. -/
theorem idx_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- Block `t` of the aggregate at `(r, q)` is the aggregate at `(5000·t + r, q)`. -/
theorem a_blk (c : Dev nD) (t : Fin cfg1.N) (r : Fin 5000) (q : Fin 3) (i : Fin 100000) (hi : i.val = t.val * 5000 + r.val) :
    iblk1 V c 0 t (ix2 r q) = V c main_v43 (ix2 i q) := by
  obtain ⟨e0, e1, -⟩ := idx_facts t
  show V c main_v43 (((cfg1.win 0).blk t).view.emb (ix2 r q)) = V c main_v43 (ix2 i q)
  refine congrArg _ ?_
  funext a; apply Fin.ext
  match a with
  | ⟨0, _⟩ => show win1_0.index t (0 : Fin 2) * 5000 + 1 * r.val = i.val; omega
  | ⟨1, _⟩ => show win1_0.index t (1 : Fin 2) * 3 + 1 * q.val = q.val; omega

/-- The first bias's one block is the whole of `b1`. -/
theorem b1_blk (c : Dev nD) (t : Fin cfg1.N) (q : Fin 3) : iblk1 V c 1 t (ix1 q) = V c main_arg3 (ix1 q) := by
  obtain ⟨-, -, e2, -⟩ := idx_facts t
  show V c main_arg3 (((cfg1.win 1).blk t).view.emb (ix1 q)) = V c main_arg3 (ix1 q)
  refine congrArg _ ?_
  funext a; apply Fin.ext
  match a with
  | ⟨0, _⟩ => show win1_1.index t (0 : Fin 1) * 3 + 1 * q.val = q.val; omega

/-- The weight's one block is the whole of `W2`. -/
theorem w2_blk (c : Dev nD) (t : Fin cfg1.N) (k : Fin 3) (q : Fin 7) : iblk1 V c 2 t (ix2 k q) = V c main_arg4 (ix2 k q) := by
  obtain ⟨-, -, -, e3, e4, -⟩ := idx_facts t
  show V c main_arg4 (((cfg1.win 2).blk t).view.emb (ix2 k q)) = V c main_arg4 (ix2 k q)
  refine congrArg _ ?_
  funext a; apply Fin.ext
  match a with
  | ⟨0, _⟩ => show win1_2.index t (0 : Fin 2) * 3 + 1 * k.val = k.val; omega
  | ⟨1, _⟩ => show win1_2.index t (1 : Fin 2) * 7 + 1 * q.val = q.val; omega

/-- The second bias's one block is the whole of `b2`. -/
theorem b2_blk (c : Dev nD) (t : Fin cfg1.N) (q : Fin 7) : iblk1 V c 3 t (ix1 q) = V c main_arg5 (ix1 q) := by
  obtain ⟨-, -, -, -, -, e5, -⟩ := idx_facts t
  show V c main_arg5 (((cfg1.win 3).blk t).view.emb (ix1 q)) = V c main_arg5 (ix1 q)
  refine congrArg _ ?_
  funext a; apply Fin.ext
  match a with
  | ⟨0, _⟩ => show win1_3.index t (0 : Fin 1) * 7 + 1 * q.val = q.val; omega

/-- The first stored value of point `t` at `(r, q)` is `rectified` of the whole arrays at `(5000·t + r, q)`. -/
theorem relu_blk (c : Dev nD) (t : Fin cfg1.N) (r : Fin 5000) (q : Fin 3) (i : Fin 100000) (hi : i.val = t.val * 5000 + r.val) :
    k1_pay1 (F := Ideal) (iblk1 V c 0 t) (iblk1 V c 1 t) (ix2 r q) = rectified (V c main_v43) (V c main_arg3) (ix2 i q) := by
  refine (relu_pay _ _ r q).trans ?_
  rw [a_blk V c t r q i hi, b1_blk V c t q]
  rfl

/-- WHAT POINT `t` WRITES BACK to the rectified array is block `t` of `rectified` of the aggregate and the bias as the
    region finds them. -/
theorem flushed4_eq (c : Dev nD) (t : Fin cfg1.N) :
    (dat1 V c).flushed 4 t = ((cfg1.win 4).blk t).view.read (Elt Ideal) (rectified (V c main_v43) (V c main_arg3)) := by
  show (cfg1.win 4).cut (grid1.coords t) ((dat1 V c).after 4 t) = _
  rw [after1_4]
  unfold out1_4
  rw [View.canon_unit_zero hz2]
  simp only [View.ld_unit_zero (S := S5000x3) hz2, View.ld_unit_zero (S := S3) hz1]
  funext y
  obtain ⟨-, -, -, -, -, -, e6, e7, -, -⟩ := idx_facts t
  have hi : ((((cfg1.win 4).blk t).view.emb y) 0).val = win1_4.index t (0 : Fin 2) * 5000 + 1 * (y 0).val := rfl
  have hq : ((((cfg1.win 4).blk t).view.emb y) 1).val = win1_4.index t (1 : Fin 2) * 3 + 1 * (y 1).val := rfl
  have hq' : (((cfg1.win 4).blk t).view.emb y) 1 = y 1 := Fin.ext (by rw [hq, e7]; omega)
  have hemb : ((cfg1.win 4).blk t).view.emb y = ix2 (((cfg1.win 4).blk t).view.emb y 0) (y 1) := by
    funext a
    match a with
    | ⟨0, _⟩ => rfl
    | ⟨1, _⟩ => exact hq'
  show k1_pay1 (F := Ideal) (iblk1 V c 0 t) (iblk1 V c 1 t) y = rectified (V c main_v43) (V c main_arg3) (((cfg1.win 4).blk t).view.emb y)
  rw [hemb]
  refine (congrArg (k1_pay1 (F := Ideal) (iblk1 V c 0 t) (iblk1 V c 1 t)) (eq_ix2 y)).trans ?_
  exact relu_blk V c t (y 0) (y 1) (((cfg1.win 4).blk t).view.emb y 0) (by rw [hi, e6]; omega)

/-- WHAT POINT `t` WRITES BACK to the logits array is block `t` of `logits` of the four arrays as the region finds them:
    the row of the first stored value against a column of `W2` is the same sum over the three features, term by term. -/
theorem flushed5_eq (c : Dev nD) (t : Fin cfg1.N) :
    (dat1 V c).flushed 5 t = ((cfg1.win 5).blk t).view.read (Elt Ideal)
      (logits (V c main_v43) (V c main_arg3) (V c main_arg4) (V c main_arg5)) := by
  show (cfg1.win 5).cut (grid1.coords t) ((dat1 V c).after 5 t) = _
  rw [after1_5]
  unfold out1_5
  rw [View.canon_unit_zero hz2]
  simp only [View.ld_unit_zero (S := S5000x3) hz2, View.ld_unit_zero (S := S3) hz1, View.ld_unit_zero (S := S3x7) hz2,
    View.ld_unit_zero (S := S7) hz1]
  funext y
  obtain ⟨-, -, -, -, -, -, -, -, e8, e9⟩ := idx_facts t
  have hi : ((((cfg1.win 5).blk t).view.emb y) 0).val = win1_5.index t (0 : Fin 2) * 5000 + 1 * (y 0).val := rfl
  have hq : ((((cfg1.win 5).blk t).view.emb y) 1).val = win1_5.index t (1 : Fin 2) * 7 + 1 * (y 1).val := rfl
  have hq' : (((cfg1.win 5).blk t).view.emb y) 1 = y 1 := Fin.ext (by rw [hq, e9]; omega)
  show k1_pay2 (F := Ideal) (iblk1 V c 0 t) (iblk1 V c 1 t) (iblk1 V c 2 t) (iblk1 V c 3 t) y
    = logits (V c main_v43) (V c main_arg3) (V c main_arg4) (V c main_arg5) (((cfg1.win 5).blk t).view.emb y)
  refine (congrArg (k1_pay2 (F := Ideal) (iblk1 V c 0 t) (iblk1 V c 1 t) (iblk1 V c 2 t) (iblk1 V c 3 t)) (eq_ix2 y)).trans ?_
  refine (logit_pay _ _ _ _ (y 0) (y 1)).trans ?_
  unfold logits rowDot
  rw [hq', b2_blk V c t (y 1)]
  refine congrArg (· + V c main_arg5 (ix1 (y 1))) ?_
  refine Finset.sum_congr rfl fun k _ => ?_
  rw [relu_blk V c t (y 0) k (((cfg1.win 5).blk t).view.emb y 0) (by rw [hi, e8]; omega), w2_blk V c t k (y 1)]

/-- An index of the rectified array is in point `t`'s block iff each coordinate is in the block's range on its axis. -/
theorem mem_blk4 (t : Fin cfg1.N) (i : S100000x3.Idx) :
    i ∈ ((cfg1.win 4).blk t).view.set ↔ ∀ a : Fin 2, win1_4.index t a * S5000x3.size a ≤ (i a).val ∧ (i a).val < win1_4.index t a * S5000x3.size a + S5000x3.size a := by
  show i ∈ ((View.whole main_v44_0).slice (win1_4.rect t)).set ↔ _
  rw [View.set_slice_whole, Rect.mem_set_unit]
  exact Iff.rfl

/-- The same for the logits array. -/
theorem mem_blk5 (t : Fin cfg1.N) (i : S100000x7.Idx) :
    i ∈ ((cfg1.win 5).blk t).view.set ↔ ∀ a : Fin 2, win1_5.index t a * S5000x7.size a ≤ (i a).val ∧ (i a).val < win1_5.index t a * S5000x7.size a + S5000x7.size a := by
  show i ∈ ((View.whole main_v44_1).slice (win1_5.rect t)).set ↔ _
  rw [View.set_slice_whole, Rect.mem_set_unit]
  exact Iff.rfl

/-- The 20 row blocks tile the rectified array: row `i` lies in the block of point `i / 5000`. -/
theorem cover4 (i : S100000x3.Idx) : ∃ t : Fin cfg1.N, (cfg1.win 4).flush t = true ∧ i ∈ ((cfg1.win 4).blk t).view.set := by
  have hi0 : (i 0).val < 100000 := (i 0).isLt
  have hi1 : (i 1).val < 3 := (i 1).isLt
  have hN : cfg1.N = 20 := N_1
  let t : Fin cfg1.N := ⟨(i 0).val / 5000, by rw [hN]; omega⟩
  have ht : t.val = (i 0).val / 5000 := rfl
  obtain ⟨-, -, -, -, -, -, e6, e7, -, -⟩ := idx_facts t
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 3 ≤ (i 1).val ∧ (i 1).val < win1_4.index t (1 : Fin 2) * 3 + 3; omega

/-- And the logits array. -/
theorem cover5 (i : S100000x7.Idx) : ∃ t : Fin cfg1.N, (cfg1.win 5).flush t = true ∧ i ∈ ((cfg1.win 5).blk t).view.set := by
  have hi0 : (i 0).val < 100000 := (i 0).isLt
  have hi1 : (i 1).val < 7 := (i 1).isLt
  have hN : cfg1.N = 20 := N_1
  let t : Fin cfg1.N := ⟨(i 0).val / 5000, by rw [hN]; omega⟩
  have ht : t.val = (i 0).val / 5000 := rfl
  obtain ⟨-, -, -, -, -, -, -, -, e8, e9⟩ := idx_facts t
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 7 ≤ (i 1).val ∧ (i 1).val < win1_5.index t (1 : Fin 2) * 7 + 7; omega

/-- THE RECTIFIED ARRAY after the region: `rectified` of the aggregate and the first bias as the region finds them. -/
theorem final4 (c : Dev nD) : (dat1 V c).arrAt 4 cfg1.N = rectified (V c main_v43) (V c main_arg3) :=
  (dat1 V c).arrAt_eq_of_cover 4 _ (fun t _ => flushed4_eq V c t) cover4

/-- THE LOGITS ARRAY after the region: `logits` of the aggregate, the biases and `W2` as the region finds them. -/
theorem final5 (c : Dev nD) :
    (dat1 V c).arrAt 5 cfg1.N = logits (V c main_v43) (V c main_arg3) (V c main_arg4) (V c main_arg5) :=
  (dat1 V c).arrAt_eq_of_cover 5 _ (fun t _ => flushed5_eq V c t) cover5

end Cert.KernelIdeal.Head

end
-- ==== Proof.KernelValue.lean ====
/-
  The kernel program's two results as functions of its six arguments. Read backwards from the end of @main: a result is
  what the second region's write-backs leave (`rectified`, `logits` of the arrays that region finds); of those the
  biases and `W2` are still the launch contents, no operation having written them, and the aggregate is what the host
  stretch between the regions computes — the graph aggregation `Graph.aggregate` — from the first region's output,
  which is `x · W1`, and from the edge list, again as launched.
-/
import proofs.«124952_j39960375722198_1_alg».proof.Proof.Gen.KernelIdeal.Frame
import proofs.«124952_j39960375722198_1_alg».proof.Proof.Graph
import proofs.«124952_j39960375722198_1_alg».proof.Proof.FeatureMap
import proofs.«124952_j39960375722198_1_alg».proof.Proof.Head
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.StableHlo
open Idealize.ShloMosaic.Pipeline (Dat Cfg Window)

section AnyFloats

variable {F : FTy → Type} [FloatOps F]
variable (m : (ℓ : Loc nD τ sig) → Buf (Elt F) ℓ) (ρ : Dev nD → PrngReg)

set_option maxHeartbeats 4000000 in
/-- THE HOST STRETCH between the regions: at the second region's entry the aggregate's buffer holds the graph
    aggregation of the first region's output and of the edge list, both as the first region left them. The fifty-six
    operations of the stretch are read off one by one; what is left is the aggregation's own text. -/
theorem aggregate_at_entry (c : Dev nD) :
    V4 m ρ c main_v43 = Graph.aggregate (W1 m ρ c (Proc.devRef .tc main_v0)) (W1 m ρ c (Proc.devRef .tc main_arg1)) := by
  show StableHlo.after hostOps1_2 (StableHlo.after hostOps1_1 (StableHlo.after hostOps1 (W1 m ρ c))) (Proc.devRef .tc main_v43) = _
  generalize W1 m ρ c = X
  after_results_simp
  rfl

/-- The edge list is not one of the first region's arrays: it leaves the region as launched. -/
theorem edges_after_first (c : Dev nD) : W1 m ρ c (Proc.devRef .tc main_arg1) = m ((c : Thread nD τ).loc main_arg1) :=
  W1_of_ne m ρ c main_arg1 (by decide)

/-- The first bias is an input of the second region, which leaves it as it finds it, and ends as launched: so the
    region found it as launched. -/
theorem bias1_at_entry (c : Dev nD) : V4 m ρ c main_arg3 = m ((c : Thread nD τ).loc main_arg3) :=
  ((W5_arr m ρ c 1).trans (((dat1 (V4 m ρ) c).arrAt_in 1 rfl _).trans (A_eq1 (V4 m ρ) c 1))).symm.trans (W5_main_arg3 m ρ c)

/-- The same for `W2`. -/
theorem weight2_at_entry (c : Dev nD) : V4 m ρ c main_arg4 = m ((c : Thread nD τ).loc main_arg4) :=
  ((W5_arr m ρ c 2).trans (((dat1 (V4 m ρ) c).arrAt_in 2 rfl _).trans (A_eq1 (V4 m ρ) c 2))).symm.trans (W5_main_arg4 m ρ c)

/-- And for the second bias. -/
theorem bias2_at_entry (c : Dev nD) : V4 m ρ c main_arg5 = m ((c : Thread nD τ).loc main_arg5) :=
  ((W5_arr m ρ c 3).trans (((dat1 (V4 m ρ) c).arrAt_in 3 rfl _).trans (A_eq1 (V4 m ρ) c 3))).symm.trans (W5_main_arg5 m ρ c)

end AnyFloats

section AtIdeal

variable (m : (ℓ : Loc nD τ sig) → Buf (Elt Ideal) ℓ) (ρ : Dev nD → PrngReg)

/-- The first region leaves `x · W1` of the launch contents in the feature array. -/
theorem features_after_first (c : Dev nD) :
    W1 m ρ c (Proc.devRef .tc main_v0)
      = FeatureMap.xw (m ((c : Thread nD τ).loc main_arg0)) (m ((c : Thread nD τ).loc main_arg2)) :=
  (W1_arr m ρ c 2).trans (FeatureMap.final (V0 m ρ) c)

/-- The aggregate the second region finds, from the launch contents. -/
theorem aggregate_value (c : Dev nD) :
    V4 m ρ c main_v43
      = Graph.aggregate (F := Ideal) (FeatureMap.xw (m ((c : Thread nD τ).loc main_arg0)) (m ((c : Thread nD τ).loc main_arg2)))
          (m ((c : Thread nD τ).loc main_arg1)) := by
  rw [aggregate_at_entry, features_after_first, edges_after_first]

/-- THE FIRST RESULT: the rectified, bias-added aggregate. -/
theorem result0 (c : Dev nD) :
    W5 m ρ c (Proc.devRef .tc main_v44_0)
      = Head.rectified
          (Graph.aggregate (F := Ideal) (FeatureMap.xw (m ((c : Thread nD τ).loc main_arg0)) (m ((c : Thread nD τ).loc main_arg2)))
            (m ((c : Thread nD τ).loc main_arg1)))
          (m ((c : Thread nD τ).loc main_arg3)) := by
  rw [← aggregate_value m ρ c, ← bias1_at_entry m ρ c]
  exact (W5_arr m ρ c 4).trans (Head.final4 (V4 m ρ) c)

/-- THE SECOND RESULT: the logits of that. -/
theorem result1 (c : Dev nD) :
    W5 m ρ c (Proc.devRef .tc main_v44_1)
      = Head.logits
          (Graph.aggregate (F := Ideal) (FeatureMap.xw (m ((c : Thread nD τ).loc main_arg0)) (m ((c : Thread nD τ).loc main_arg2)))
            (m ((c : Thread nD τ).loc main_arg1)))
          (m ((c : Thread nD τ).loc main_arg3)) (m ((c : Thread nD τ).loc main_arg4)) (m ((c : Thread nD τ).loc main_arg5)) := by
  rw [← aggregate_value m ρ c, ← bias1_at_entry m ρ c, ← weight2_at_entry m ρ c, ← bias2_at_entry m ρ c]
  exact (W5_arr m ρ c 5).trans (Head.final5 (V4 m ρ) c)

end AtIdeal

end Cert.KernelIdeal.KernelValue

end
-- ==== Proof.RefValue.lean ====
/-
  The reference's two results, named. The reference multiplies `x` by `W1` whole, runs the graph aggregation on the
  product — the same operations with the same constants as the kernel program's host stretch, so the same function
  `Graph.aggregate`, by unfolding —, adds the bias row and takes the maximum with zero (its first result, `refH`), then
  multiplies by `W2` whole and adds the second bias row (its second result, `refZ`). The run's two long result terms
  are these, for any float values.
-/
import proofs.«124952_j39960375722198_1_alg».proof.Proof.ReferenceRun
import proofs.«124952_j39960375722198_1_alg».proof.Proof.Graph

set_option maxRecDepth 16384

noncomputable section

namespace Cert.ReferenceIdeal.RefValue

open Idealize.ShloMosaic Idealize.ShloMosaic.TcCoe
open Cert.ReferenceIdeal Cert.ReferenceIdeal.Facts₀

section AnyFloats

variable {F : FTy → Type} [FloatOps F]

/-- The reference's first result as a function of the four arrays it reads. -/
def refH (x : FVec F S100000x256 .f32) (e : IVec S2x3200000 32) (w1 : FVec F S256x3 .f32) (b1 : FVec F S3 .f32) :
    FVec F S100000x3 .f32 :=
  maximumf (addf (Cert.KernelIdeal.Graph.aggregate (Host.dotGeneral dot_S100000x256_S256x3_S100000x3_1_0_0_1_n_n none x w1) e)
      (broadcastInDim S100000x3 ![0, 1] bcast_S1x3_S100000x3_0_1 (broadcastInDim S1x3 ![1] bcast_S3_S1x3_1 b1)))
    (broadcastInDim S100000x3 ![] bcast_S_S100000x3 (constant S_ .f32 0x00000000#32))

/-- Its second result as a function of the first and of the two arrays it reads besides. -/
def refZ (h : FVec F S100000x3 .f32) (w2 : FVec F S3x7 .f32) (b2 : FVec F S7 .f32) : FVec F S100000x7 .f32 :=
  addf (Host.dotGeneral dot_S100000x3_S3x7_S100000x7_1_0_0_1_n_n none h w2)
    (broadcastInDim S100000x7 ![0, 1] bcast_S1x7_S100000x7_0_1 (broadcastInDim S1x7 ![1] bcast_S7_S1x7_1 b2))

set_option maxHeartbeats 4000000 in
/-- The run's term for the first result is `refH` of the launch contents: the same text, the graph operations folded
    into `Graph.aggregate`. -/
theorem out0_eq (m : (ℓ : Loc nD τ sig) → Buf (Elt F) ℓ) (c : Dev nD) :
    Cert.ReferenceIdeal.RunP.res_main_v47 m c
      = refH (m ((c.tc : Thread nD τ).loc main_arg0)) (m ((c.tc : Thread nD τ).loc main_arg1))
          (m ((c.tc : Thread nD τ).loc main_arg2)) (m ((c.tc : Thread nD τ).loc main_arg3)) := by
  unfold Cert.ReferenceIdeal.RunP.res_main_v47 refH
  rfl

set_option maxHeartbeats 4000000 in
/-- And the second result's is `refZ` of that. -/
theorem out1_eq (m : (ℓ : Loc nD τ sig) → Buf (Elt F) ℓ) (c : Dev nD) :
    Cert.ReferenceIdeal.RunP.res_main_v51 m c
      = refZ (refH (m ((c.tc : Thread nD τ).loc main_arg0)) (m ((c.tc : Thread nD τ).loc main_arg1))
            (m ((c.tc : Thread nD τ).loc main_arg2)) (m ((c.tc : Thread nD τ).loc main_arg3)))
          (m ((c.tc : Thread nD τ).loc main_arg4)) (m ((c.tc : Thread nD τ).loc main_arg5)) := by
  unfold Cert.ReferenceIdeal.RunP.res_main_v51 refZ refH
  rfl

end AnyFloats

end Cert.ReferenceIdeal.RefValue

end
-- ==== Proof.RefEntries.lean ====
/-
  The reference's two results entry by entry, on extended reals. jnp's product of two matrices at an entry is the
  row-by-column sum; a bias row broadcast along the nodes, at an entry, is the bias of the entry's column; the zero
  splat at an entry is zero. So the first result is `rectified` of the aggregate of `x · W1`, and the second is
  `logits` of the same. The aggregate stays a name throughout: it is the same function of equal arguments on both
  sides, and nothing here depends on what it computes.
-/
import proofs.«124952_j39960375722198_1_alg».proof.Proof.RefValue
import proofs.«124952_j39960375722198_1_alg».proof.Proof.Graph
import proofs.«124952_j39960375722198_1_alg».proof.Proof.LibRowDot
import proofs.«124952_j39960375722198_1_alg».proof.Proof.FeatureMap
import proofs.«124952_j39960375722198_1_alg».proof.Proof.Head
import Idealize.ShloMosaic.Lib.Pipeline.Value
import Idealize.ShloMosaic.Lib.ValueIdx
import Idealize.ShloMosaic.PureOps.Ideal.Laws

set_option maxRecDepth 16384

noncomputable section

namespace Cert.ReferenceIdeal.RefEntries

open Idealize.ShloMosaic Idealize.ShloMosaic.TcCoe Idealize.ShloMosaic.ValueIdx
open Cert.ReferenceIdeal Cert.ReferenceIdeal.Facts₀ Cert.ReferenceIdeal.RefValue Cert.LibRowDot

/-- jnp's `x @ W1` on extended reals is the row-by-column sum. -/
theorem dot1_eq (x : FVec Ideal S100000x256 .f32) (w : FVec Ideal S256x3 .f32) :
    Host.dotGeneral dot_S100000x256_S256x3_S100000x3_1_0_0_1_n_n none x w = Cert.KernelIdeal.FeatureMap.xw x w := by
  funext j
  exact dotGeneral_apply dot_S100000x256_S256x3_S100000x3_1_0_0_1_n_n rfl rfl rfl rfl rfl rfl none _ x w j

/-- A row of three broadcast along the nodes, at an entry, is the row at the entry's column. -/
theorem bias_row3 (b : FVec Ideal S3 .f32) (j : S100000x3.Idx) :
    broadcastInDim S100000x3 ![0, 1] bcast_S1x3_S100000x3_0_1 (broadcastInDim S1x3 ![1] bcast_S3_S1x3_1 b) j = b (ix1 (j 1)) :=
  (broadcastInDim_apply _ _ _ j (ix2 (0 : Fin 1) (j 1)) (fun a => by match a with | ⟨0, _⟩ => rfl | ⟨1, _⟩ => rfl)).trans
    (broadcastInDim_apply _ _ _ _ (ix1 (j 1)) (fun a => by match a with | ⟨0, _⟩ => rfl))

/-- The same for a row of seven. -/
theorem bias_row7 (b : FVec Ideal S7 .f32) (j : S100000x7.Idx) :
    broadcastInDim S100000x7 ![0, 1] bcast_S1x7_S100000x7_0_1 (broadcastInDim S1x7 ![1] bcast_S7_S1x7_1 b) j = b (ix1 (j 1)) :=
  (broadcastInDim_apply _ _ _ j (ix2 (0 : Fin 1) (j 1)) (fun a => by match a with | ⟨0, _⟩ => rfl | ⟨1, _⟩ => rfl)).trans
    (broadcastInDim_apply _ _ _ _ (ix1 (j 1)) (fun a => by match a with | ⟨0, _⟩ => rfl))

/-- The zero splat at an entry is the zero word's value. -/
theorem zero_splat (j : S100000x3.Idx) :
    broadcastInDim S100000x3 ![] bcast_S_S100000x3 (constant (F := Ideal) S_ .f32 0x00000000#32) j = Ideal.ofBits .f32 0x00000000#32 := rfl

/-- Bias, then maximum with zero, entry by entry, of ANY array `A` in the aggregate's place. -/
theorem rectify_eq (A : FVec Ideal S100000x3 .f32) (b1 : FVec Ideal S3 .f32) :
    maximumf (addf A (broadcastInDim S100000x3 ![0, 1] bcast_S1x3_S100000x3_0_1 (broadcastInDim S1x3 ![1] bcast_S3_S1x3_1 b1)))
        (broadcastInDim S100000x3 ![] bcast_S_S100000x3 (constant S_ .f32 0x00000000#32))
      = Cert.KernelIdeal.Head.rectified A b1 := by
  funext j
  unfold Cert.KernelIdeal.Head.rectified
  simp only [maximumf, addf, Ideal.maximumf_def, Ideal.addf_def]
  rw [bias_row3, zero_splat]

/-- THE FIRST RESULT: `rectified` of the aggregate of `x · W1`. -/
theorem refH_eq (x : FVec Ideal S100000x256 .f32) (e : IVec S2x3200000 32) (w1 : FVec Ideal S256x3 .f32) (b1 : FVec Ideal S3 .f32) :
    refH (F := Ideal) x e w1 b1
      = Cert.KernelIdeal.Head.rectified (Cert.KernelIdeal.Graph.aggregate (F := Ideal) (Cert.KernelIdeal.FeatureMap.xw x w1) e) b1 := by
  unfold refH
  rw [dot1_eq]
  generalize Cert.KernelIdeal.Graph.aggregate (F := Ideal) (Cert.KernelIdeal.FeatureMap.xw x w1) e = A
  exact rectify_eq A b1

/-- THE SECOND RESULT of ANY first result `h`, entry by entry: `h`'s row against a column of `W2`, plus the column's bias. -/
theorem refZ_eq (h : FVec Ideal S100000x3 .f32) (w2 : FVec Ideal S3x7 .f32) (b2 : FVec Ideal S7 .f32) :
    refZ (F := Ideal) h w2 b2 = fun j => rowDot h w2 (j 0) (j 1) + b2 (ix1 (j 1)) := by
  funext j
  unfold refZ
  simp only [addf, Ideal.addf_def]
  rw [bias_row7]
  exact congrArg (· + b2 (ix1 (j 1)))
    (dotGeneral_apply dot_S100000x3_S3x7_S100000x7_1_0_0_1_n_n rfl rfl rfl rfl rfl rfl none _ h w2 j)

/-- So the second result is `logits` of the same aggregate. -/
theorem refZ_refH_eq (x : FVec Ideal S100000x256 .f32) (e : IVec S2x3200000 32) (w1 : FVec Ideal S256x3 .f32)
    (b1 : FVec Ideal S3 .f32) (w2 : FVec Ideal S3x7 .f32) (b2 : FVec Ideal S7 .f32) :
    refZ (F := Ideal) (refH (F := Ideal) x e w1 b1) w2 b2
      = Cert.KernelIdeal.Head.logits (Cert.KernelIdeal.Graph.aggregate (F := Ideal) (Cert.KernelIdeal.FeatureMap.xw x w1) e) b1 w2 b2 := by
  rw [refH_eq]
  generalize Cert.KernelIdeal.Graph.aggregate (F := Ideal) (Cert.KernelIdeal.FeatureMap.xw x w1) e = A
  rw [refZ_eq]
  rfl

end Cert.ReferenceIdeal.RefEntries

end
-- ==== Proof.lean ====
/-
  One graph-convolution layer and a linear head, 100000 nodes, 3200000 edges: `h = relu(Â (x W1) + b1)`, `z = h W2 + b2`,
  where `Â` is the adjacency with self-loops, each edge weighted by `1/√deg` of its two ends. The kernel program computes
  `x W1` in a first tiled region (20 blocks of 5000 nodes), aggregates over the edges on the host exactly as the reference
  does, and computes `h` and `z` in a second tiled region; the reference does everything on the host, whole arrays at a time.

  Why the two agree on extended reals. A tile of a matrix product is the product of the tile's rows: entry `(i, q)` of
  `x W1` is the sum over the 256 features of `x[i, k] · W1[k, q]` whether row `i` is met in its block of 5000 or in the
  whole array, and the kernel's cast to bf16 changes no extended real; likewise `h W2`, a sum of three products. The bias
  rows and the maximum with zero act entry by entry. The aggregation between the regions is the same host operations
  with the same constants in both programs, applied to equal arguments, and is never opened. So both programs add and
  multiply the same numbers in the same order, and no law of arithmetic — hence no finiteness of the inputs — is needed.

  The modules: `FeatureMap` (the first region's array is `x W1`), `Head` (the second region's arrays are `rectified` and
  `logits` of what it reads), `Graph` (the aggregation as one function), `KernelValue` (the kernel program's results as
  functions of its arguments, through the host stretch), `RefValue` and `RefEntries` (the reference's results named, then entry by entry the same functions),
  `ResultsRun` and `ReferenceRun` (the two programs' runs with the results named), `LibRowDot` (a plain matrix
  product at an entry). The idealization rewrote nothing, so `preserves` has nothing to state.
-/
import proofs.«124952_j39960375722198_1_alg».proof.Defs
import proofs.«124952_j39960375722198_1_alg».proof.Proof.Gen.Kernel
import proofs.«124952_j39960375722198_1_alg».proof.Proof.Gen.Kernel.Skeleton
import proofs.«124952_j39960375722198_1_alg».proof.Proof.Gen.Kernel.Launch
import proofs.«124952_j39960375722198_1_alg».proof.Proof.Gen.Kernel.Points
import proofs.«124952_j39960375722198_1_alg».proof.Proof.Gen.Kernel.Frame
import proofs.«124952_j39960375722198_1_alg».proof.Proof.Gen.KernelIdeal
import proofs.«124952_j39960375722198_1_alg».proof.Proof.Gen.KernelIdeal.Skeleton
import proofs.«124952_j39960375722198_1_alg».proof.Proof.Gen.KernelIdeal.Launch
import proofs.«124952_j39960375722198_1_alg».proof.Proof.Gen.KernelIdeal.Points
import proofs.«124952_j39960375722198_1_alg».proof.Proof.Gen.KernelIdeal.Frame
import proofs.«124952_j39960375722198_1_alg».proof.Proof.Gen.ReferenceIdeal
import proofs.«124952_j39960375722198_1_alg».proof.Proof.Gen.Pre_finite_inputs
import proofs.«124952_j39960375722198_1_alg».proof.Proof.ReferenceRun
import proofs.«124952_j39960375722198_1_alg».proof.Proof.ResultsRun
import proofs.«124952_j39960375722198_1_alg».proof.Proof.KernelValue
import proofs.«124952_j39960375722198_1_alg».proof.Proof.RefValue
import proofs.«124952_j39960375722198_1_alg».proof.Proof.RefEntries
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments: its two regions and the host stretches
    around them, launched as one chain. -/
theorem frame_kernel : Cert.frame_Kernel := fun m ρ _ => Cert.Kernel.Gen.frame m ρ

/-- The same program read on extended reals. -/
theorem frame_kernelIdeal : Cert.frame_KernelIdeal := fun m ρ _ => Cert.KernelIdeal.Gen.frame m ρ

/-- The reference is a straight line of host operations: its run, the results dropped. -/
theorem frame_reference : Cert.frame_ReferenceIdeal := fun m ρ _ =>
  (θ_run Cert.ReferenceIdeal.defs _ _).mono (fun _ h c => (h c).2.2) (Cert.ReferenceIdeal.RunP.run (F := Ideal) m ρ)

/-- From memories that agree on the six arguments both programs end with `h = rectified(aggregate(x W1))` and
    `z = logits` of the same: the kernel program's two results read back through its regions, the reference's two
    result terms read entry by entry. -/
theorem algebraic : Cert.algebraic_KernelIdeal_ReferenceIdeal := by
  intro m ρ m' ρ' _ hagree
  refine ⟨_, _, Cert.KernelIdeal.ResultsRun.run_results (F := Ideal) m ρ, ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · rw [Cert.ReferenceIdeal.RefValue.out0_eq, (hagree c).1, (hagree c).2.1, (hagree c).2.2.1, (hagree c).2.2.2.1,
      Cert.ReferenceIdeal.RefEntries.refH_eq]
    exact (Cert.KernelIdeal.KernelValue.result0 m ρ c).symm
  · rw [Cert.ReferenceIdeal.RefValue.out1_eq, (hagree c).1, (hagree c).2.1, (hagree c).2.2.1, (hagree c).2.2.2.1,
      (hagree c).2.2.2.2.1, (hagree c).2.2.2.2.2, Cert.ReferenceIdeal.RefEntries.refZ_refH_eq]
    exact (Cert.KernelIdeal.KernelValue.result1 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
